-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x65536 : Shape := ⟨3, ![4, 64, 65536]⟩
abbrev S4x16x65536 : Shape := ⟨3, ![4, 16, 65536]⟩
abbrev S_ : Shape := ⟨0, ![]⟩

class Facts : Prop where
  bcast_S_S4x64x65536 : S_.BroadcastsInDim S4x64x65536 (![] : Fin 0 → Fin S4x64x65536.rank)
  reducesTo_S4x64x65536_S_d0_1_2 : S4x64x65536.ReducesTo [0, 1, 2] S_
  h_S_ : 0 < S_.numel
  bcast_S_S4x16x65536 : S_.BroadcastsInDim S4x16x65536 (![] : Fin 0 → Fin S4x16x65536.rank)
  reducesTo_S4x16x65536_S_d0_1_2 : S4x16x65536.ReducesTo [0, 1, 2] S_

variable [Facts]

def fn {F : FTy → Type} [FloatOps F] (main_arg0 : FVec F S4x64x65536 .f32) (main_arg1 : IVec S4x16x65536 32) : IVec S_ 1 :=
  let main_v0 : FVec F S4x64x65536 .f32 := Host.absf main_arg0
  let main_cst : FVec F S_ .f32 := constant S_ .f32 0x7F800000#32
  let main_v1 : FVec F S4x64x65536 .f32 := broadcastInDim S4x64x65536 ![] bcast_S_S4x64x65536 main_cst
  let main_v2 : IVec S4x64x65536 1 := cmpf .olt main_v0 main_v1
  let main_c : IVec S_ 1 := constantI S_ 1 1#1
  let main_v3 : IVec S_ 1 := (fun x v => Host.reduce IntOp.andi x v reducesTo_S4x64x65536_S_d0_1_2 h_S_) main_v2 main_c
  let main_c_0 : IVec S_ 32 := constantI S_ 32 0#32
  let main_v4 : IVec S4x16x65536 32 := broadcastInDim S4x16x65536 ![] bcast_S_S4x16x65536 main_c_0
  let main_v5 : IVec S4x16x65536 1 := cmpi .sge main_arg1 main_v4
  let main_c_1 : IVec S_ 1 := constantI S_ 1 1#1
  let main_v6 : IVec S_ 1 := (fun x v => Host.reduce IntOp.andi x v reducesTo_S4x16x65536_S_d0_1_2 h_S_) main_v5 main_c_1
  let main_v7 : IVec S_ 1 := andi main_v3 main_v6
  main_v7
-- ==== Kernel.lean ====
abbrev S4x64x65536 : Shape := ⟨3, ![4, 64, 65536]⟩
abbrev S4x16x65536 : Shape := ⟨3, ![4, 16, 65536]⟩
abbrev S_ : Shape := ⟨0, ![]⟩
abbrev S4x16x65536x1 : Shape := ⟨4, ![4, 16, 65536, 1]⟩
abbrev S1 : Shape := ⟨1, ![1]⟩
abbrev S1x1x1x1 : Shape := ⟨4, ![1, 1, 1, 1]⟩
abbrev S4x16x64x65536 : Shape := ⟨4, ![4, 16, 64, 65536]⟩
abbrev S1x16x64x2048 : Shape := ⟨4, ![1, 16, 64, 2048]⟩
abbrev S1x64x2048 : Shape := ⟨3, ![1, 64, 2048]⟩
abbrev S16x64x2048 : Shape := ⟨3, ![16, 64, 2048]⟩
abbrev S64x2048 : Shape := ⟨2, ![64, 2048]⟩

abbrev nBuf : Space → Nat
  | .hbm => 34
  | .vmem => 4
  | .smem => 0
  | _ => 0

abbrev bufTy : (tb : Table) → Fin (tcTables nBuf tb) → BufTy
  | .hbm, ⟨0, _⟩ => ⟨S4x64x65536, .f32⟩
  | .hbm, ⟨1, _⟩ => ⟨S4x16x65536, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S4x16x65536, .i32⟩
  | .hbm, ⟨6, _⟩ => ⟨S4x16x65536, .i32⟩
  | .hbm, ⟨7, _⟩ => ⟨S_, .i32⟩
  | .hbm, ⟨8, _⟩ => ⟨S4x16x65536, .i32⟩
  | .hbm, ⟨9, _⟩ => ⟨S4x16x65536, .i32⟩
  | .hbm, ⟨10, _⟩ => ⟨S_, .i32⟩
  | .hbm, ⟨11, _⟩ => ⟨S4x16x65536, .i32⟩
  | .hbm, ⟨12, _⟩ => ⟨S4x16x65536, .i1⟩
  | .hbm, ⟨13, _⟩ => ⟨S_, .i32⟩
  | .hbm, ⟨14, _⟩ => ⟨S4x16x65536, .i32⟩
  | .hbm, ⟨15, _⟩ => ⟨S4x16x65536, .i32⟩
  | .hbm, ⟨16, _⟩ => ⟨S4x16x65536, .i32⟩
  | .hbm, ⟨17, _⟩ => ⟨S4x16x65536x1, .i32⟩
  | .hbm, ⟨18, _⟩ => ⟨S1, .i32⟩
  | .hbm, ⟨19, _⟩ => ⟨S_, .i32⟩
  | .hbm, ⟨20, _⟩ => ⟨S4x16x65536x1, .i32⟩
  | .hbm, ⟨21, _⟩ => ⟨S4x16x65536x1, .i1⟩
  | .hbm, ⟨22, _⟩ => ⟨S1x1x1x1, .i32⟩
  | .hbm, ⟨23, _⟩ => ⟨S4x16x65536x1, .i32⟩
  | .hbm, ⟨24, _⟩ => ⟨S4x16x65536x1, .i1⟩
  | .hbm, ⟨25, _⟩ => ⟨S4x16x65536x1, .i1⟩
  | .hbm, ⟨26, _⟩ => ⟨S_, .i1⟩
  | .hbm, ⟨27, _⟩ => ⟨S4x16x65536, .i1⟩
  | .hbm, ⟨28, _⟩ => ⟨S4x16x64x65536, .f32⟩
  | .hbm, ⟨29, _⟩ => ⟨S4x16x64x65536, .i1⟩
  | .hbm, ⟨30, _⟩ => ⟨S_, .f32⟩
  | .hbm, ⟨31, _⟩ => ⟨S4x16x64x65536, .f32⟩
  | .hbm, ⟨32, _⟩ => ⟨S4x16x64x65536, .f32⟩
  | .hbm, ⟨33, _⟩ => ⟨S4x64x65536, .f32⟩
  | .local _ .vmem, ⟨0, _⟩ => ⟨S1x16x64x2048, .f32⟩
  | .local _ .vmem, ⟨1, _⟩ => ⟨S1x16x64x2048, .f32⟩
  | .local _ .vmem, ⟨2, _⟩ => ⟨S1x64x2048, .f32⟩
  | .local _ .vmem, ⟨3, _⟩ => ⟨S1x64x2048, .f32⟩
  | _, _ => ⟨S4x64x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_call1_c : Ref sig .tc := ⟨.hbm, 10, rfl⟩
abbrev main_call1_v0 : Ref sig .tc := ⟨.hbm, 11, rfl⟩
abbrev main_call1_v1 : Ref sig .tc := ⟨.hbm, 12, rfl⟩
abbrev main_call1_c_0 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_c_1 : Ref sig .tc := ⟨.hbm, 18, rfl⟩
abbrev main_call1_c_2 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_v9 : Ref sig .tc := ⟨.hbm, 23, rfl⟩
abbrev main_call1_v10 : Ref sig .tc := ⟨.hbm, 24, rfl⟩
abbrev main_call1_v11 : Ref sig .tc := ⟨.hbm, 25, rfl⟩
abbrev main_call1_c_3 : Ref sig .tc := ⟨.hbm, 26, rfl⟩
abbrev main_call1_v12 : Ref sig .tc := ⟨.hbm, 27, rfl⟩
abbrev main_call1_v13 : Ref sig .tc := ⟨.hbm, 28, rfl⟩
abbrev main_call1_v14 : Ref sig .tc := ⟨.hbm, 29, rfl⟩
abbrev main_call1_cst : Ref sig .tc := ⟨.hbm, 30, rfl⟩
abbrev main_call1_v15 : Ref sig .tc := ⟨.hbm, 31, rfl⟩
abbrev main_v1 : Ref sig .tc := ⟨.hbm, 32, rfl⟩
abbrev main_v2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x16x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  bcast_S_S4x16x65536 : S_.BroadcastsInDim S4x16x65536 (![] : Fin 0 → Fin S4x16x65536.rank)
  bcast_S4x16x65536_S4x16x65536x1_0_1_2 : S4x16x65536.BroadcastsInDim S4x16x65536x1 (![0, 1, 2] : Fin 3 → Fin S4x16x65536x1.rank)
  bcast_S_S4x16x65536x1 : S_.BroadcastsInDim S4x16x65536x1 (![] : Fin 0 → Fin S4x16x65536x1.rank)
  bcast_S1_S1x1x1x1_3 : S1.BroadcastsInDim S1x1x1x1 (![3] : Fin 1 → Fin S1x1x1x1.rank)
  bcast_S1x1x1x1_S4x16x65536x1_0_1_2_3 : S1x1x1x1.BroadcastsInDim S4x16x65536x1 (![0, 1, 2, 3] : Fin 4 → Fin S4x16x65536x1.rank)
  reducesTo_S4x16x65536x1_S4x16x65536_d3 : S4x16x65536x1.ReducesTo [3] S4x16x65536
  h_S_ : 0 < S_.numel
  bcast_S4x16x65536_S4x16x64x65536_0_1_3 : S4x16x65536.BroadcastsInDim S4x16x64x65536 (![0, 1, 3] : Fin 3 → Fin S4x16x64x65536.rank)
  bcast_S_S4x16x64x65536 : S_.BroadcastsInDim S4x16x64x65536 (![] : Fin 0 → Fin S4x16x64x65536.rank)
  inb_S1x16x64x2048_S1x16x64x2048_0_0_0_0 : ∀ a, (![0, 0, 0, 0] : Fin 4 → Nat) a + S1x16x64x2048.size a ≤ S1x16x64x2048.size a
  h_S1x16x64x2048 : 0 < S1x16x64x2048.numel
  shapeCasts_S1x16x64x2048_S16x64x2048 : S1x16x64x2048.ShapeCasts S16x64x2048
  reduces_S16x64x2048_S64x2048 : S16x64x2048.Reduces [0] S64x2048
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  shapeCasts_S64x2048_S1x64x2048 : S64x2048.ShapeCasts S1x64x2048
  gather_S4x64x65536_S4x16x65536x1_S4x16x64x65536_2_2_0_0_2_3_1641_wf : GatherDims.WF S4x64x65536 S4x16x65536x1 S4x16x64x65536 [2] [2] [0] [2] [0] 3 ![1, 64, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x64x2048.size a ≤ S4x16x64x65536.size a
  hwx0_0 : ∀ i : grid0.Coords, EltTy.bits .f32 = 32 ∨ (Rect.block (s := S4x16x64x65536) S1x16x64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x2048.size a ≤ S4x64x65536.size a
  hwx0_1 : ∀ i : grid0.Coords, EltTy.bits .f32 = 32 ∨ (Rect.block (s := S4x64x65536) S1x64x2048.size (cc0_transform_1 i) (hinb0_1 i)).WholeWords (EltTy.packing .f32)

variable [Facts₀]

def gather_S4x64x65536_S4x16x65536x1_S4x16x64x65536_2_2_0_0_2_3_1641 : GatherDims S4x64x65536 S4x16x65536x1 S4x16x64x65536 where
  offsetDims := [2]
  collapsedSliceDims := [2]
  operandBatchingDims := [0]
  startIndicesBatchingDims := [0]
  startIndexMap := [2]
  indexVectorDim := 3
  sliceSizes := ![1, 64, 1]
  wf := gather_S4x64x65536_S4x16x65536x1_S4x16x64x65536_2_2_0_0_2_3_1641_wf

abbrev win0_0 : Pipeline.Window sig grid0 :=
  Pipeline.Window.ofSpec (Memref.whole main_v1) S1x16x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x64x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x64x65536 : Shape := ⟨3, ![4, 64, 65536]⟩
abbrev S4x16x65536 : Shape := ⟨3, ![4, 16, 65536]⟩
abbrev S_ : Shape := ⟨0, ![]⟩
abbrev S4x16x65536x1 : Shape := ⟨4, ![4, 16, 65536, 1]⟩
abbrev S4x64x16x65536 : Shape := ⟨4, ![4, 64, 16, 65536]⟩

abbrev nBuf : Space → Nat
  | .hbm => 13
  | .vmem => 0
  | .smem => 0
  | _ => 0

abbrev bufTy : (tb : Table) → Fin (tcTables nBuf tb) → BufTy
  | .hbm, ⟨0, _⟩ => ⟨S4x64x65536, .f32⟩
  | .hbm, ⟨1, _⟩ => ⟨S4x16x65536, .i32⟩
  | .hbm, ⟨2, _⟩ => ⟨S_, .i32⟩
  | .hbm, ⟨3, _⟩ => ⟨S4x16x65536, .i32⟩
  | .hbm, ⟨4, _⟩ => ⟨S4x16x65536, .i1⟩
  | .hbm, ⟨5, _⟩ => ⟨S_, .i32⟩
  | .hbm, ⟨6, _⟩ => ⟨S4x16x65536, .i32⟩
  | .hbm, ⟨7, _⟩ => ⟨S4x16x65536, .i32⟩
  | .hbm, ⟨8, _⟩ => ⟨S4x16x65536, .i32⟩
  | .hbm, ⟨9, _⟩ => ⟨S4x16x65536x1, .i32⟩
  | .hbm, ⟨10, _⟩ => ⟨S4x64x16x65536, .f32⟩
  | .hbm, ⟨11, _⟩ => ⟨S_, .f32⟩
  | .hbm, ⟨12, _⟩ => ⟨S4x64x65536, .f32⟩
  | _, _ => ⟨S4x64x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S4x16x65536 : S_.BroadcastsInDim S4x16x65536 (![] : Fin 0 → Fin S4x16x65536.rank)
  bcast_S4x16x65536_S4x16x65536x1_0_1_2 : S4x16x65536.BroadcastsInDim S4x16x65536x1 (![0, 1, 2] : Fin 3 → Fin S4x16x65536x1.rank)
  reducesTo_S4x64x16x65536_S4x64x65536_d2 : S4x64x16x65536.ReducesTo [2] S4x64x65536
  h_S_ : 0 < S_.numel
  gather_S4x64x65536_S4x16x65536x1_S4x64x16x65536_1_2_0_0_2_3_1641_wf : GatherDims.WF S4x64x65536 S4x16x65536x1 S4x64x16x65536 [1] [2] [0] [2] [0] 3 ![1, 64, 1]

variable [Facts₀]

def gather_S4x64x65536_S4x16x65536x1_S4x64x16x65536_1_2_0_0_2_3_1641 : GatherDims S4x64x65536 S4x16x65536x1 S4x64x16x65536 where
  offsetDims := [1]
  collapsedSliceDims := [2]
  operandBatchingDims := [0]
  startIndicesBatchingDims := [0]
  startIndexMap := [2]
  indexVectorDim := 3
  sliceSizes := ![1, 64, 1]
  wf := gather_S4x64x65536_S4x16x65536x1_S4x64x16x65536_1_2_0_0_2_3_1641_wf

class Facts : Prop extends Facts₀ where

variable [Facts]
-- ==== Proof.KernelBlock.lean ====
/-
  What the kernel body stores, read at an index.

  The body loads its whole input block `P : [1, 16, 64, 2048]` (16 neighbour slots of 64 feature rows over a tile of
  2048 nodes), drops the unit axis, takes the maximum over the slot axis from -∞, and stores the `[1, 64, 2048]` result
  whole. So the stored block at `(0, c, q)` is the maximum over the 16 slots `k` of `P (0, k, c, q)`.
-/
import proofs.«406322_j56891136803056_3_alg».proof.Proof.KernelIdealValueP
import Idealize.ShloMosaic.PureOps.Ideal.Laws
import Idealize.ShloMosaic.Lib.ValueIdx

noncomputable section

namespace Cert.KernelIdeal.Pool

open Cert.KernelIdeal Cert.KernelIdeal.Gen Cert.KernelIdeal.ValueP
open Idealize.ShloMosaic Idealize.ShloMosaic.ValueIdx

/-- The slot axis dropped: element `(k, c, q)` of the `[16, 64, 2048]` view is element `(0, k, c, q)` of the block. -/
theorem unit_dropped (P : Vec Ideal S1x16x64x2048 .f32) (k : Fin 16) (c : Fin 64) (q : Fin 2048) :
    shapeCast S16x64x2048 P shapeCasts_S1x16x64x2048_S16x64x2048 (ix3 k c q) = P (ix4 0 k c q) :=
  shapeCast_apply _ _ _ (ix4 0 k c q) (by
    rw [Shape.rowMajor_val_four, Shape.rowMajor_val_three]
    show (((0 : ℕ) * 16 + k.val) * 64 + c.val) * 2048 + q.val = (k.val * 64 + c.val) * 2048 + q.val
    omega)

/-- A slot coordinate inserted in front of a `(c, q)` index. -/
theorem lift_eq (c : Fin 64) (q : Fin 2048) (k : Fin 16) :
    reduces_S16x64x2048_S64x2048.lift (ix2 c q) k = ix3 k c q :=
  funext fun a => Fin.ext (by match a with | ⟨0, _⟩ => rfl | ⟨1, _⟩ => rfl | ⟨2, _⟩ => rfl)

/-- The stored value is the slot maximum (over the block with its unit axis dropped), read at `(c, q)`. -/
theorem stored_cast (P : Vec Ideal S1x16x64x2048 .f32) (c : Fin 64) (q : Fin 2048) :
    k0_pay1 (F := Ideal) P (ix3 0 c q) = multiReduction .maximumf [0] S64x2048
      (shapeCast S16x64x2048 P shapeCasts_S1x16x64x2048_S16x64x2048) 0xFF800000#32 reduces_S16x64x2048_S64x2048 (.inl rfl) rfl
      (ix2 c q) := by
  rw [lay1_0_eq P]
  exact shapeCast_apply _ _ (ix3 0 c q) (ix2 c q) (by
    rw [Shape.rowMajor_val_two, Shape.rowMajor_val_three]
    show c.val * 2048 + q.val = ((0 : ℕ) * 64 + c.val) * 2048 + q.val
    omega)

/-- A maximum over the slot axis of a `[16, 64, 2048]` vector, from the word of -∞, as a fold over the 16 slots. -/
theorem slot_max (Q : FVec Ideal S16x64x2048 .f32) (j : S64x2048.Idx) :
    multiReduction .maximumf [0] S64x2048 Q 0xFF800000#32 reduces_S16x64x2048_S64x2048 (.inl rfl) rfl j
      = (Finset.univ : Finset (Fin 16)).fold max (FloatOps.ofBits (F := Ideal) .f32 0xFF800000#32)
          (fun k => Q (reduces_S16x64x2048_S64x2048.lift j k)) :=
  Ideal.multiReduction_maximumf_single Q 0xFF800000#32 reduces_S16x64x2048_S64x2048 (.inl rfl) rfl j

/-- The stored block at `(0, c, q)`: the maximum over the slots of the loaded block at `(0, k, c, q)`. -/
theorem stored_at (P : Vec Ideal S1x16x64x2048 .f32) (c : Fin 64) (q : Fin 2048) :
    k0_pay1 (F := Ideal) P (ix3 0 c q) = (Finset.univ : Finset (Fin 16)).fold max (FloatOps.ofBits (F := Ideal) .f32 0xFF800000#32)
      fun k => P (ix4 0 k c q) := by
  have hf : (fun k : Fin 16 => shapeCast S16x64x2048 P shapeCasts_S1x16x64x2048_S16x64x2048
        (reduces_S16x64x2048_S64x2048.lift (ix2 c q) k)) = fun k => P (ix4 0 k c q) :=
    funext fun k => by rw [lift_eq, unit_dropped]
  rw [stored_cast, slot_max]
  exact congrArg (fun f : Fin 16 → Ideal .f32 =>
    Finset.fold max (FloatOps.ofBits (F := Ideal) .f32 0xFF800000#32) f Finset.univ) hf

/-- THE STORED BLOCK at a block index `y = (0, c, q)`. -/
theorem stored_apply (P : Vec Ideal S1x16x64x2048 .f32) (y : S1x64x2048.Idx) :
    k0_pay1 (F := Ideal) P y = (Finset.univ : Finset (Fin 16)).fold max (FloatOps.ofBits (F := Ideal) .f32 0xFF800000#32)
      fun k => P (ix4 0 k (y 1) (y 2)) := by
  have hy : y = ix3 (0 : Fin 1) (y 1) (y 2) := funext fun a => by
    match a with
    | ⟨0, _⟩ => exact Fin.ext (by have h : (y 0).val < 1 := (y 0).isLt; show (y 0).val = 0; omega)
    | ⟨1, _⟩ => rfl
    | ⟨2, _⟩ => rfl
  exact (congrArg (k0_pay1 (F := Ideal) P) hy).trans (stored_at P (y 1) (y 2))

end Cert.KernelIdeal.Pool

end
-- ==== Proof.KernelFold.lean ====
/-
  The array the kernel's region is launched on, as a function of the arguments.

  Before the region the host clips the neighbour words, `v0 = min 65535 (max 0 nb)`, and takes, for every batch `b`,
  slot `k`, row `c` and node `n`, the feature `x (b, c, ·)` at the column `v0 (b, k, n)` names: a wrap of negative
  words, a batched gather of columns, and a range test that would blank the element (to a NaN word) were the word
  outside `[0, 65535]`. Here the host operations are composed, stretch by stretch, into ONE
  term `taken x (clipped nb)`; the next module reads it at an index.
-/
import proofs.«406322_j56891136803056_3_alg».proof.Proof.Gen.KernelIdeal.Frame
import Idealize.ShloMosaic.Lib.StableHlo.Run
import Idealize.ShloMosaic.Lib.Pipeline.Value

noncomputable section

namespace Cert.KernelIdeal.HostValue

open Cert.KernelIdeal Cert.KernelIdeal.Gen
open Idealize.ShloMosaic Idealize.ShloMosaic.TcCoe Idealize.SL.Sem Idealize.ShloMosaic.StableHlo

variable {F : FTy → Type} [FloatOps F]

/-! ## The host operations before the region, as functions of the arguments -/

/-- The clip: `min 65535 (max 0 nb)`. -/
def clipped (nb : IVec S4x16x65536 32) : IVec S4x16x65536 32 :=
  minsi (broadcastInDim S4x16x65536 ![] bcast_S_S4x16x65536 (constantI S_ 32 65535#32))
    (maxsi (broadcastInDim S4x16x65536 ![] bcast_S_S4x16x65536 (constantI S_ 32 0#32)) nb)

/-- The start-index table: the word, wrapped round if negative, as a column. -/
def starts (v : IVec S4x16x65536 32) : IVec S4x16x65536x1 32 :=
  broadcastInDim S4x16x65536x1 ![0, 1, 2] bcast_S4x16x65536_S4x16x65536x1_0_1_2
    (select (cmpi .slt v (broadcastInDim S4x16x65536 ![] bcast_S_S4x16x65536 (constantI S_ 32 0#32)))
      (addi v (broadcastInDim S4x16x65536 ![] bcast_S_S4x16x65536 (constantI S_ 32 65536#32))) v)

/-- The range test: the start index is in `[0, 65535]`. -/
def inRange (s : IVec S4x16x65536x1 32) : IVec S4x16x65536 1 :=
  Host.reduce IntOp.andi
    (andi (cmpi .sge s (broadcastInDim S4x16x65536x1 ![] bcast_S_S4x16x65536x1 (constantI S_ 32 0#32)))
      (cmpi .sle s (broadcastInDim S4x16x65536x1 ![0, 1, 2, 3] bcast_S1x1x1x1_S4x16x65536x1_0_1_2_3
        (broadcastInDim S1x1x1x1 ![3] bcast_S1_S1x1x1x1_3 (constantI S1 32 65535#32)))))
    (constantI S_ 1 1#1) reducesTo_S4x16x65536x1_S4x16x65536_d3 h_S_

/-- The gathered columns where the mask is set, a NaN word elsewhere. -/
def masked (mask : IVec S4x16x65536 1) (x : FVec F S4x64x65536 .f32) (s : IVec S4x16x65536x1 32) : FVec F S4x16x64x65536 .f32 :=
  select (broadcastInDim S4x16x64x65536 ![0, 1, 3] bcast_S4x16x65536_S4x16x64x65536_0_1_3 mask)
    (Host.gather gather_S4x64x65536_S4x16x65536x1_S4x16x64x65536_2_2_0_0_2_3_1641 x s)
    (broadcastInDim S4x16x64x65536 ![] bcast_S_S4x16x64x65536 (constant (F := F) S_ .f32 0x7FC00000#32))

/-- The take: the gathered columns where the range test passes. -/
def taken (x : FVec F S4x64x65536 .f32) (v : IVec S4x16x65536 32) : FVec F S4x16x64x65536 .f32 :=
  masked (inRange (starts v)) x (starts v)

/-! ## The fold over the host operations, stretch by stretch

The 2 constants and the 6 operations of the clip make one stretch; the 23 operations of the take are cut in three:
8 to the start-index table, 10 to the range test, 5 to the gather and the select. -/

set_option maxHeartbeats 2000000 in
/-- After the constants and the clip, `main_v0` holds the clipped words. -/
theorem clip_stretch (W : Valuation τ sig (Elt F)) :
    StableHlo.after (hostOps0 ++ hostOps0_1) W (Proc.devRef .tc main_v0) = clipped (W (Proc.devRef .tc main_arg1)) := by
  simp only [hostOps0, hostOps0_1, List.cons_append, List.nil_append]
  after_results_simp
  simp only [TRef.ofBuf, TRef.toBuf, cast_eq, id_eq]
  unfold clipped
  rfl

set_option maxHeartbeats 2000000 in
/-- They leave the features alone. -/
theorem clip_stretch_arg0 (W : Valuation τ sig (Elt F)) :
    StableHlo.after (hostOps0 ++ hostOps0_1) W (Proc.devRef .tc main_arg0) = W (Proc.devRef .tc main_arg0) := by
  simp only [hostOps0, hostOps0_1, List.cons_append, List.nil_append]
  after_results_simp

/-- The take's operations, cut in three. -/
theorem take_cut : (hostOps0_2 : List (HloOp τ sig (Elt F)))
    = hostOps0_2.take 8 ++ ((hostOps0_2.drop 8).take 10 ++ (hostOps0_2.drop 8).drop 10) := by
  rw [List.take_append_drop, List.take_append_drop]

set_option maxHeartbeats 2000000 in
/-- The first 8: `main_call1_v5` holds the start-index table of `main_v0`. -/
theorem starts_stretch (W : Valuation τ sig (Elt F)) :
    StableHlo.after (hostOps0_2.take 8) W (Proc.devRef .tc main_call1_v5) = starts (W (Proc.devRef .tc main_v0)) := by
  simp only [hostOps0_2, List.take_succ_cons, List.take_zero]
  after_results_simp
  simp only [TRef.ofBuf, TRef.toBuf, cast_eq, id_eq]
  unfold starts
  rfl

set_option maxHeartbeats 2000000 in
theorem starts_stretch_arg0 (W : Valuation τ sig (Elt F)) :
    StableHlo.after (hostOps0_2.take 8) W (Proc.devRef .tc main_arg0) = W (Proc.devRef .tc main_arg0) := by
  simp only [hostOps0_2, List.take_succ_cons, List.take_zero]
  after_results_simp

set_option maxHeartbeats 2000000 in
/-- The next 10: `main_call1_v12` holds the range test of the start-index table. -/
theorem range_stretch (W : Valuation τ sig (Elt F)) :
    StableHlo.after ((hostOps0_2.drop 8).take 10) W (Proc.devRef .tc main_call1_v12)
      = inRange (W (Proc.devRef .tc main_call1_v5)) := by
  simp only [hostOps0_2, List.drop_succ_cons, List.drop_zero, List.take_succ_cons, List.take_zero]
  after_results_simp
  simp only [TRef.ofBuf, TRef.toBuf, cast_eq, id_eq]
  unfold inRange
  rfl

set_option maxHeartbeats 2000000 in
theorem range_stretch_arg0 (W : Valuation τ sig (Elt F)) :
    StableHlo.after ((hostOps0_2.drop 8).take 10) W (Proc.devRef .tc main_arg0) = W (Proc.devRef .tc main_arg0) := by
  simp only [hostOps0_2, List.drop_succ_cons, List.drop_zero, List.take_succ_cons, List.take_zero]
  after_results_simp

set_option maxHeartbeats 2000000 in
theorem range_stretch_starts (W : Valuation τ sig (Elt F)) :
    StableHlo.after ((hostOps0_2.drop 8).take 10) W (Proc.devRef .tc main_call1_v5) = W (Proc.devRef .tc main_call1_v5) := by
  simp only [hostOps0_2, List.drop_succ_cons, List.drop_zero, List.take_succ_cons, List.take_zero]
  after_results_simp

set_option maxHeartbeats 2000000 in
/-- The last 5: `main_v1` holds the gathered columns masked by `main_call1_v12`. -/
theorem gather_stretch (W : Valuation τ sig (Elt F)) :
    StableHlo.after ((hostOps0_2.drop 8).drop 10) W (Proc.devRef .tc main_v1)
      = masked (W (Proc.devRef .tc main_call1_v12)) (W (Proc.devRef .tc main_arg0)) (W (Proc.devRef .tc main_call1_v5)) := by
  simp only [hostOps0_2, List.drop_succ_cons, List.drop_zero]
  after_results_simp
  simp only [TRef.ofBuf, TRef.toBuf, cast_eq, id_eq]
  unfold masked
  rfl

/-- After the take, `main_v1` holds `taken` of the features and of `main_v0`. -/
theorem take_stretch (W : Valuation τ sig (Elt F)) :
    StableHlo.after hostOps0_2 W (Proc.devRef .tc main_v1)
      = taken (W (Proc.devRef .tc main_arg0)) (W (Proc.devRef .tc main_v0)) := by
  rw [take_cut, StableHlo.after_append, StableHlo.after_append, gather_stretch, range_stretch, range_stretch_arg0,
    range_stretch_starts, starts_stretch, starts_stretch_arg0]
  rfl

/-- THE LAUNCHED ARRAY as a function of the arguments. -/
theorem launched (m : (ℓ : Loc nD τ sig) → Buf (Elt F) ℓ) (c : Dev nD) :
    V m c main_v1 = taken (m ((c : Thread nD τ).loc main_arg0)) (clipped (m ((c : Thread nD τ).loc main_arg1))) := by
  show StableHlo.after (List.flatten [hostOps0, hostOps0_1, hostOps0_2]) (fun b => m (c, b)) (Proc.devRef .tc main_v1) = _
  rw [show List.flatten [(hostOps0 : List (HloOp τ sig (Elt F))), hostOps0_1, hostOps0_2] = (hostOps0 ++ hostOps0_1) ++ hostOps0_2 by
    simp only [List.flatten_cons, List.flatten_nil, List.append_nil, List.append_assoc]]
  rw [StableHlo.after_append, take_stretch, clip_stretch, clip_stretch_arg0]

end Cert.KernelIdeal.HostValue

end
-- ==== Proof.Words.lean ====
/-
  One neighbour index, as a 32-bit word `w`, and the column of the feature table that each program reads for it.

  A gather reads its start index as a SIGNED integer and saturates it into the table: column
  `col w = min (toNat (toInt w)) 65535` (a negative word reads column 0, a word past the end column 65535).

  * The kernel first clips the word, `min 65535 (max 0 w)`, then hands it to a `take` that would wrap a negative
    index round (`w + 65536`) and would blank the result where the index is outside `[0, 65535]`. On a clipped
    word neither happens, for EVERY `w`: the clipped word is never negative and never past the end, and its
    column is `col w` again (saturating twice is saturating once).
  * The reference wraps a negative index round, `w + 65536`, and does not clip. For `w ≥ 0` the wrap does
    nothing and its column is `col w`. (For `-65535 ≤ w ≤ -1` it reads column `w + 65536`, not column 0:
    this is where the two programs part, and why the indices are taken non-negative.)
-/
import Idealize.ShloMosaic.PureOps

namespace Cert.Neighbours

open Idealize.ShloMosaic

/-- The column a gather reads for the start word `w`: its signed value saturated into `[0, 65535]`. -/
def col (w : BitVec 32) : Fin 65536 := ⟨min w.toInt.toNat 65535, by omega⟩

theorem col_val (w : BitVec 32) : (col w).val = min w.toInt.toNat 65535 := rfl

/-- The kernel's clip of a word: `min 65535 (max 0 w)`, signed. -/
def clip (w : BitVec 32) : BitVec 32 := IntOp.minsi 65535#32 (IntOp.maxsi 0#32 w)

/-- The wrap both programs apply before gathering: a negative index counts from the end. -/
def wrap (w : BitVec 32) : BitVec 32 := Scalar.select (IntOp.cmpi .slt w 0#32) (IntOp.addi w 65536#32) w

private theorem toInt_zero : (0#32 : BitVec 32).toInt = 0 := by decide
private theorem toInt_top : (65535#32 : BitVec 32).toInt = 65535 := by decide

/-- The clipped word's signed value is the signed value saturated into `[0, 65535]`. -/
theorem toInt_clip (w : BitVec 32) : (clip w).toInt = min 65535 (max 0 w.toInt) := by
  have hmax : (IntOp.maxsi 0#32 w).toInt = max 0 w.toInt := by
    unfold IntOp.maxsi
    by_cases h : w.slt 0#32 = true
    · rw [if_pos h]; simp only [BitVec.slt, toInt_zero, decide_eq_true_eq] at h; rw [toInt_zero]; omega
    · rw [if_neg h]; simp only [BitVec.slt, toInt_zero, decide_eq_true_eq] at h; omega
  unfold clip IntOp.minsi
  by_cases h : (65535#32 : BitVec 32).slt (IntOp.maxsi 0#32 w) = true
  · rw [if_pos h]; simp only [BitVec.slt, toInt_top, decide_eq_true_eq, hmax] at h; rw [toInt_top]; omega
  · rw [if_neg h]; simp only [BitVec.slt, toInt_top, decide_eq_true_eq, hmax] at h; rw [hmax]; omega

theorem clip_nonneg (w : BitVec 32) : 0 ≤ (clip w).toInt := by rw [toInt_clip]; omega
theorem clip_le (w : BitVec 32) : (clip w).toInt ≤ 65535 := by rw [toInt_clip]; omega

/-- Wrapping leaves a non-negative word alone. -/
theorem wrap_of_nonneg (w : BitVec 32) (hw : 0 ≤ w.toInt) : wrap w = w := by
  unfold wrap Scalar.select IntOp.cmpi
  rw [if_neg]
  simp only [BitVec.slt, toInt_zero]
  rw [decide_eq_false (by omega)]
  decide

/-- So the kernel's `take` wraps nothing: its index is the clipped word, -/
theorem wrap_clip (w : BitVec 32) : wrap (clip w) = clip w := wrap_of_nonneg _ (clip_nonneg w)

/-- its range test passes (not below 0, not above 65535), -/
theorem clip_sge (w : BitVec 32) : IntOp.cmpi .sge (clip w) 0#32 = 1#1 := by
  unfold IntOp.cmpi
  simp only [BitVec.sle, toInt_zero]
  rw [decide_eq_true (clip_nonneg w)]; rfl
theorem clip_sle (w : BitVec 32) : IntOp.cmpi .sle (clip w) 65535#32 = 1#1 := by
  unfold IntOp.cmpi
  simp only [BitVec.sle, toInt_top]
  rw [decide_eq_true (clip_le w)]; rfl

/-- and the column it reads is the column of the word itself. -/
theorem col_clip (w : BitVec 32) : col (clip w) = col w := by
  apply Fin.ext
  rw [col_val, col_val, toInt_clip]
  omega

end Cert.Neighbours
-- ==== Proof.Spec.lean ====
/-
  What both programs compute, as ONE function of the two argument arrays.

  `x : [4, 64, 65536]` holds, per batch `b`, a table of 64 feature rows over 65536 nodes; `nb : [4, 16, 65536]` holds,
  per batch, 16 neighbour slots per node, each a node number. The result at `(b, c, n)` is the largest, over the 16
  slots `k`, of feature row `c` at the node that slot `k` of node `n` names:

      pooled x nb (b, c, n) = max_k  x (b, c, col (nb (b, k, n))),        from -∞,

  the node number read as a gather reads it (`col`: signed, saturated into the table).
-/
import Idealize.ShloMosaic.PureOps.Ideal
import Idealize.ShloMosaic.Lib.ValueIdx
import proofs.«406322_j56891136803056_3_alg».proof.Proof.Words

noncomputable section

namespace Cert.Neighbours

open Idealize.ShloMosaic Idealize.ShloMosaic.ValueIdx

/-- The neighbourhood maximum. The initial value is the f32 word of -∞, kept as a word: both programs carry the same one. -/
def pooled (x : FVec Ideal ⟨3, ![4, 64, 65536]⟩ .f32) (nb : IVec ⟨3, ![4, 16, 65536]⟩ 32) : FVec Ideal ⟨3, ![4, 64, 65536]⟩ .f32 :=
  fun i => (Finset.univ : Finset (Fin 16)).fold max (FloatOps.ofBits (F := Ideal) .f32 0xFF800000#32)
    fun k => x (ix3 (i 0) (i 1) (col (nb (ix3 (i 0) k (i 2)))))

theorem pooled_apply (x : FVec Ideal ⟨3, ![4, 64, 65536]⟩ .f32) (nb : IVec ⟨3, ![4, 16, 65536]⟩ 32)
    (b : Fin 4) (c : Fin 64) (n : Fin 65536) :
    pooled x nb (ix3 b c n) = (Finset.univ : Finset (Fin 16)).fold max (FloatOps.ofBits (F := Ideal) .f32 0xFF800000#32)
      fun k => x (ix3 b c (col (nb (ix3 b k n)))) := rfl

end Cert.Neighbours

end
-- ==== Proof.LibColumnGather.lean ====
/-
  A batched gather of COLUMNS, read at an index.

  The operand is a stack of `B` tables `[C, N]`; the start indices are `[B, K, M, 1]`: for batch `b`, neighbour slot `k`
  and position `n` ONE column number. The gather takes, for each `(b, k, n)`, the whole column `[C]` of table `b` that
  the start index names (the batch axis paired with the start indices' batch axis, the column axis collapsed and
  start-indexed, the row axis the one offset axis, slice sizes `[1, C, 1]`). A start index is read signed and saturated
  into the table, `min (toNat (toInt w)) (N - 1)`, as every `stablehlo.gather` saturates its starts.

  Two layouts of the result occur: the column axis put after the slot axis, `[B, K, C, M]` (offset axis 2: what a
  `take` along axis 1 mapped over slots and batches lowers to), and before it, `[B, C, K, M]` (offset axis 1: what
  `f[:, nb]` mapped over batches lowers to). In both, element `(b, ·, ·, n)` at row `c` and slot `k` is
  `x[b, c, col]` with `col` the saturated start index at `(b, k, n, 0)`.

  Stated for any dimension-number record with these fields (each hypothesis is `rfl` at a printed record).
-/
import Idealize.ShloMosaic.PureOps
import Idealize.ShloMosaic.Lib.ValueIdx

namespace Cert.LibColumnGather

open Idealize.ShloMosaic Idealize.ShloMosaic.ValueIdx

variable {α : Type} {B C N K M w : Nat}

/-- The saturated start index as a column number. -/
def satCol (N : Nat) (hN : 0 < N) (v : BitVec w) : Fin N := ⟨min v.toInt.toNat (N - 1), by omega⟩

private theorem not_mem_single {n : Nat} {a b : Fin n} (h : a.val ≠ b.val) : a ∉ [b] :=
  fun hm => h (congrArg Fin.val (List.mem_singleton.mp hm))

/-! ### Result layout `[B, K, C, M]` -/

/-- The batch axis: the table number is the result's batch coordinate. -/
private theorem sf_axis0 (sl : Fin 3 → Nat) (wf : GatherDims.WF ⟨3, ![B, C, N]⟩ ⟨4, ![B, K, M, 1]⟩ ⟨4, ![B, K, C, M]⟩ [2] [2] [0] [2] [0] 3 sl)
    (idx : IVec ⟨4, ![B, K, M, 1]⟩ w) (b : Fin B) (c : Fin C) (k : Fin K) (n : Fin M) :
    ((GatherDims.mk (s := ⟨3, ![B, C, N]⟩) (si := ⟨4, ![B, K, M, 1]⟩) (t := ⟨4, ![B, K, C, M]⟩) [2] [2] [0] [0] [2] 3 sl wf).operandIdx (ix4 b k c n) idx 0).val = b.val := by
  have hb : (0 : Fin 3) ∈ [(0 : Fin 3)] := List.mem_singleton.mpr rfl
  show GatherDims.start _ _ idx 0 + GatherDims.batchCoord _ _ 0 + GatherDims.offCoord _ _ 0 = _
  rw [GatherDims.start_batching _ _ _ _ hb,
    GatherDims.offCoord_eq_zero _ _ _ (fun h => ((GatherDims.mem_sKept _ _).1 h).2 hb)]
  unfold GatherDims.batchCoord
  rw [dif_pos hb]
  unfold GatherDims.siCoord
  simp only [Fin.val_cast, Nat.zero_add, Nat.add_zero]
  rfl

/-- The row axis: the one offset axis, the result's row coordinate. -/
private theorem sf_axis1 (sl : Fin 3 → Nat) (wf : GatherDims.WF ⟨3, ![B, C, N]⟩ ⟨4, ![B, K, M, 1]⟩ ⟨4, ![B, K, C, M]⟩ [2] [2] [0] [2] [0] 3 sl)
    (idx : IVec ⟨4, ![B, K, M, 1]⟩ w) (b : Fin B) (c : Fin C) (k : Fin K) (n : Fin M) :
    ((GatherDims.mk (s := ⟨3, ![B, C, N]⟩) (si := ⟨4, ![B, K, M, 1]⟩) (t := ⟨4, ![B, K, C, M]⟩) [2] [2] [0] [0] [2] 3 sl wf).operandIdx (ix4 b k c n) idx 1).val = c.val := by
  show GatherDims.start _ _ idx 1 + GatherDims.batchCoord _ _ 1 + GatherDims.offCoord _ _ 1 = _
  rw [GatherDims.batchCoord_eq_zero _ _ _ (not_mem_single (show (1 : ℕ) ≠ 0 by decide))]
  unfold GatherDims.start
  rw [dif_neg (not_mem_single (show (1 : ℕ) ≠ 2 by decide))]
  unfold GatherDims.offCoord
  rw [dif_pos ((GatherDims.mem_sKept _ _).2 ⟨not_mem_single (show (1 : ℕ) ≠ 2 by decide),
    not_mem_single (show (1 : ℕ) ≠ 0 by decide)⟩)]
  simp only [Nat.zero_add, Nat.add_zero]
  rfl

/-- The column axis, collapsed and start-indexed: the saturated start index at `(b, k, n, 0)`. -/
private theorem sf_axis2 (sl : Fin 3 → Nat) (wf : GatherDims.WF ⟨3, ![B, C, N]⟩ ⟨4, ![B, K, M, 1]⟩ ⟨4, ![B, K, C, M]⟩ [2] [2] [0] [2] [0] 3 sl)
    (idx : IVec ⟨4, ![B, K, M, 1]⟩ w) (b : Fin B) (c : Fin C) (k : Fin K) (n : Fin M) (hsl : sl 2 = 1) :
    ((GatherDims.mk (s := ⟨3, ![B, C, N]⟩) (si := ⟨4, ![B, K, M, 1]⟩) (t := ⟨4, ![B, K, C, M]⟩) [2] [2] [0] [0] [2] 3 sl wf).operandIdx (ix4 b k c n) idx 2).val = min (idx (ix4 b k n 0)).toInt.toNat (N - 1) := by
  have hm : (2 : Fin 3) ∈ [(2 : Fin 3)] := List.mem_singleton.mpr rfl
  show GatherDims.start _ _ idx 2 + GatherDims.batchCoord _ _ 2 + GatherDims.offCoord _ _ 2 = _
  rw [GatherDims.batchCoord_eq_zero _ _ _ (not_mem_single (show (2 : ℕ) ≠ 0 by decide)),
    GatherDims.offCoord_eq_zero _ _ _ (fun h => ((GatherDims.mem_sKept _ _).1 h).1 hm)]
  unfold GatherDims.start
  rw [dif_pos hm]
  simp only [Nat.add_zero]
  show min (idx _).toInt.toNat (N - sl 2) = min _ (N - 1)
  rw [hsl]
  congr 3
  congr 1
  funext e
  apply Fin.ext
  match e with
  | ⟨0, _⟩ => rfl
  | ⟨1, _⟩ => rfl
  | ⟨2, _⟩ => rfl
  | ⟨3, _⟩ => rfl

/-- THE GATHER READ AT `(b, k, c, n)`: row `c` of table `b` at the saturated column that start index `(b, k, n, 0)` names. -/
theorem gather_columns_slot_first
    (d : GatherDims ⟨3, ![B, C, N]⟩ ⟨4, ![B, K, M, 1]⟩ ⟨4, ![B, K, C, M]⟩)
    (hoff : d.offsetDims = [2]) (hcoll : d.collapsedSliceDims = [2]) (hob : d.operandBatchingDims = [0])
    (hsb : d.startIndicesBatchingDims = [0]) (hsim : d.startIndexMap = [2]) (hivd : d.indexVectorDim = 3)
    (x : (⟨3, ![B, C, N]⟩ : Shape).Idx → α) (idx : IVec ⟨4, ![B, K, M, 1]⟩ w)
    (b : Fin B) (c : Fin C) (k : Fin K) (n : Fin M) (hN : 0 < N) :
    Host.gather d x idx (ix4 b k c n) = x (ix3 b c (satCol N hN (idx (ix4 b k n 0)))) := by
  have hsl : d.sliceSizes 2 = 1 := d.slice_collapsed 2 (by rw [hcoll]; exact List.mem_singleton.mpr rfl)
  obtain ⟨off, coll, ob, sb, sim, ivd, sl, wf⟩ := d
  dsimp only at hoff hcoll hob hsb hsim hivd hsl
  subst hoff hcoll hob hsb hsim hivd
  unfold Host.gather
  congr 1
  funext a
  apply Fin.ext
  match a with
  | ⟨0, _⟩ => exact sf_axis0 sl wf idx b c k n
  | ⟨1, _⟩ => exact sf_axis1 sl wf idx b c k n
  | ⟨2, _⟩ => exact sf_axis2 sl wf idx b c k n hsl

/-! ### Result layout `[B, C, K, M]` -/

/-- The batch axis: the table number is the result's batch coordinate. -/
private theorem rf_axis0 (sl : Fin 3 → Nat) (wf : GatherDims.WF ⟨3, ![B, C, N]⟩ ⟨4, ![B, K, M, 1]⟩ ⟨4, ![B, C, K, M]⟩ [1] [2] [0] [2] [0] 3 sl)
    (idx : IVec ⟨4, ![B, K, M, 1]⟩ w) (b : Fin B) (c : Fin C) (k : Fin K) (n : Fin M) :
    ((GatherDims.mk (s := ⟨3, ![B, C, N]⟩) (si := ⟨4, ![B, K, M, 1]⟩) (t := ⟨4, ![B, C, K, M]⟩) [1] [2] [0] [0] [2] 3 sl wf).operandIdx (ix4 b c k n) idx 0).val = b.val := by
  have hb : (0 : Fin 3) ∈ [(0 : Fin 3)] := List.mem_singleton.mpr rfl
  show GatherDims.start _ _ idx 0 + GatherDims.batchCoord _ _ 0 + GatherDims.offCoord _ _ 0 = _
  rw [GatherDims.start_batching _ _ _ _ hb,
    GatherDims.offCoord_eq_zero _ _ _ (fun h => ((GatherDims.mem_sKept _ _).1 h).2 hb)]
  unfold GatherDims.batchCoord
  rw [dif_pos hb]
  unfold GatherDims.siCoord
  simp only [Fin.val_cast, Nat.zero_add, Nat.add_zero]
  rfl

/-- The row axis: the one offset axis, the result's row coordinate. -/
private theorem rf_axis1 (sl : Fin 3 → Nat) (wf : GatherDims.WF ⟨3, ![B, C, N]⟩ ⟨4, ![B, K, M, 1]⟩ ⟨4, ![B, C, K, M]⟩ [1] [2] [0] [2] [0] 3 sl)
    (idx : IVec ⟨4, ![B, K, M, 1]⟩ w) (b : Fin B) (c : Fin C) (k : Fin K) (n : Fin M) :
    ((GatherDims.mk (s := ⟨3, ![B, C, N]⟩) (si := ⟨4, ![B, K, M, 1]⟩) (t := ⟨4, ![B, C, K, M]⟩) [1] [2] [0] [0] [2] 3 sl wf).operandIdx (ix4 b c k n) idx 1).val = c.val := by
  show GatherDims.start _ _ idx 1 + GatherDims.batchCoord _ _ 1 + GatherDims.offCoord _ _ 1 = _
  rw [GatherDims.batchCoord_eq_zero _ _ _ (not_mem_single (show (1 : ℕ) ≠ 0 by decide))]
  unfold GatherDims.start
  rw [dif_neg (not_mem_single (show (1 : ℕ) ≠ 2 by decide))]
  unfold GatherDims.offCoord
  rw [dif_pos ((GatherDims.mem_sKept _ _).2 ⟨not_mem_single (show (1 : ℕ) ≠ 2 by decide),
    not_mem_single (show (1 : ℕ) ≠ 0 by decide)⟩)]
  simp only [Nat.zero_add, Nat.add_zero]
  rfl

/-- The column axis, collapsed and start-indexed: the saturated start index at `(b, k, n, 0)`. -/
private theorem rf_axis2 (sl : Fin 3 → Nat) (wf : GatherDims.WF ⟨3, ![B, C, N]⟩ ⟨4, ![B, K, M, 1]⟩ ⟨4, ![B, C, K, M]⟩ [1] [2] [0] [2] [0] 3 sl)
    (idx : IVec ⟨4, ![B, K, M, 1]⟩ w) (b : Fin B) (c : Fin C) (k : Fin K) (n : Fin M) (hsl : sl 2 = 1) :
    ((GatherDims.mk (s := ⟨3, ![B, C, N]⟩) (si := ⟨4, ![B, K, M, 1]⟩) (t := ⟨4, ![B, C, K, M]⟩) [1] [2] [0] [0] [2] 3 sl wf).operandIdx (ix4 b c k n) idx 2).val = min (idx (ix4 b k n 0)).toInt.toNat (N - 1) := by
  have hm : (2 : Fin 3) ∈ [(2 : Fin 3)] := List.mem_singleton.mpr rfl
  show GatherDims.start _ _ idx 2 + GatherDims.batchCoord _ _ 2 + GatherDims.offCoord _ _ 2 = _
  rw [GatherDims.batchCoord_eq_zero _ _ _ (not_mem_single (show (2 : ℕ) ≠ 0 by decide)),
    GatherDims.offCoord_eq_zero _ _ _ (fun h => ((GatherDims.mem_sKept _ _).1 h).1 hm)]
  unfold GatherDims.start
  rw [dif_pos hm]
  simp only [Nat.add_zero]
  show min (idx _).toInt.toNat (N - sl 2) = min _ (N - 1)
  rw [hsl]
  congr 3
  congr 1
  funext e
  apply Fin.ext
  match e with
  | ⟨0, _⟩ => rfl
  | ⟨1, _⟩ => rfl
  | ⟨2, _⟩ => rfl
  | ⟨3, _⟩ => rfl

/-- THE GATHER READ AT `(b, c, k, n)`: row `c` of table `b` at the saturated column that start index `(b, k, n, 0)` names. -/
theorem gather_columns_row_first
    (d : GatherDims ⟨3, ![B, C, N]⟩ ⟨4, ![B, K, M, 1]⟩ ⟨4, ![B, C, K, M]⟩)
    (hoff : d.offsetDims = [1]) (hcoll : d.collapsedSliceDims = [2]) (hob : d.operandBatchingDims = [0])
    (hsb : d.startIndicesBatchingDims = [0]) (hsim : d.startIndexMap = [2]) (hivd : d.indexVectorDim = 3)
    (x : (⟨3, ![B, C, N]⟩ : Shape).Idx → α) (idx : IVec ⟨4, ![B, K, M, 1]⟩ w)
    (b : Fin B) (c : Fin C) (k : Fin K) (n : Fin M) (hN : 0 < N) :
    Host.gather d x idx (ix4 b c k n) = x (ix3 b c (satCol N hN (idx (ix4 b k n 0)))) := by
  have hsl : d.sliceSizes 2 = 1 := d.slice_collapsed 2 (by rw [hcoll]; exact List.mem_singleton.mpr rfl)
  obtain ⟨off, coll, ob, sb, sim, ivd, sl, wf⟩ := d
  dsimp only at hoff hcoll hob hsb hsim hivd hsl
  subst hoff hcoll hob hsb hsim hivd
  unfold Host.gather
  congr 1
  funext a
  apply Fin.ext
  match a with
  | ⟨0, _⟩ => exact rf_axis0 sl wf idx b c k n
  | ⟨1, _⟩ => exact rf_axis1 sl wf idx b c k n
  | ⟨2, _⟩ => exact rf_axis2 sl wf idx b c k n hsl

end Cert.LibColumnGather
-- ==== Proof.LibReduceAnd.lean ====
/-
  `jnp.all` in the other direction: a `stablehlo.reduce` by `and` of one-bit words, every one of which is 1, from an
  initial value that is 1, is 1 at every result index (the library's Lib/ReduceAll.lean reads a result that is 1 back into
  its operand; this is the converse, for a range test that is known to pass everywhere).
-/
import Idealize.ShloMosaic.Lib.ReduceAll

namespace Cert.LibReduceAnd

open Idealize.ShloMosaic

/-- A left fold by `and` over words that are all 1, from 1, is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 by decide]
    exact foldl_andi_one f hf l

/-- A reduce by `and` of an operand that is 1 everywhere, from an initial value that is 1, is 1. -/
theorem reduce_andi_of_all {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  exact foldl_andi_one x hx _

end Cert.LibReduceAnd
-- ==== Proof.KernelHost.lean ====
/-
  The array the kernel's region is launched on, read at an index.

  `taken x (clipped nb)` is: a wrap of negative words, a batched gather of columns, and a range test that would blank
  the element (to a NaN word) were the start word outside `[0, 65535]`. On a clipped word the wrap and the blanking do
  nothing, for EVERY `nb`; so the launched array at `(b, k, c, n)` is `x (b, c, col (nb (b, k, n)))`.
-/
import proofs.«406322_j56891136803056_3_alg».proof.Proof.KernelFold
import proofs.«406322_j56891136803056_3_alg».proof.Proof.Spec
import proofs.«406322_j56891136803056_3_alg».proof.Proof.LibColumnGather
import proofs.«406322_j56891136803056_3_alg».proof.Proof.LibReduceAnd
import Idealize.ShloMosaic.Lib.Pipeline.Value

noncomputable section

namespace Cert.KernelIdeal.HostValue

open Cert.KernelIdeal Cert.KernelIdeal.Gen Cert.Neighbours
open Idealize.ShloMosaic Idealize.ShloMosaic.TcCoe Idealize.SL.Sem Idealize.ShloMosaic.StableHlo Idealize.ShloMosaic.ValueIdx

variable {F : FTy → Type} [FloatOps F]

/-- The start-index table of the clipped words at `(b, k, n, 0)`: the clipped word itself. -/
theorem starts_apply (nb : IVec S4x16x65536 32) (b : Fin 4) (k : Fin 16) (n : Fin 65536) :
    starts (clipped nb) (ix4 b k n 0) = clip (nb (ix3 b k n)) := by
  have e : starts (clipped nb) (ix4 b k n 0) = wrap (clip (nb (ix3 b k n))) := by
    unfold starts
    refine (broadcastInDim_apply _ bcast_S4x16x65536_S4x16x65536x1_0_1_2 _ (ix4 b k n 0) (ix3 b k n) (fun a => match a with
      | ⟨0, _⟩ => by show b.val = if (4 : Nat) = 1 then 0 else b.val; rw [if_neg (by decide)]
      | ⟨1, _⟩ => by show k.val = if (16 : Nat) = 1 then 0 else k.val; rw [if_neg (by decide)]
      | ⟨2, _⟩ => by show n.val = if (65536 : Nat) = 1 then 0 else n.val; rw [if_neg (by decide)])).trans ?_
    rfl
  rw [e, wrap_clip]

/-- The range test passes everywhere on clipped words. -/
theorem inRange_clipped (nb : IVec S4x16x65536 32) (j : S4x16x65536.Idx) : inRange (starts (clipped nb)) j = 1#1 := by
  unfold inRange
  refine Cert.LibReduceAnd.reduce_andi_of_all _ _ _ _ j (fun i => ?_) rfl
  obtain ⟨b, k, n, z, rfl⟩ : ∃ (b : Fin 4) (k : Fin 16) (n : Fin 65536) (z : Fin 1), i = ix4 b k n z :=
    ⟨i 0, i 1, i 2, i 3, eq_ix4 i⟩
  obtain rfl : z = 0 := Subsingleton.elim _ _
  show IntOp.andi (IntOp.cmpi .sge (starts (clipped nb) (ix4 b k n 0)) 0#32)
    (IntOp.cmpi .sle (starts (clipped nb) (ix4 b k n 0)) 65535#32) = 1#1
  rw [starts_apply, clip_sge, clip_sle]
  decide

/-- THE LAUNCHED ARRAY AT `(b, k, c, n)`: feature row `c` of batch `b` at the node slot `k` of node `n` names. -/
theorem taken_apply (x : FVec F S4x64x65536 .f32) (nb : IVec S4x16x65536 32) (b : Fin 4) (k : Fin 16) (c : Fin 64) (n : Fin 65536) :
    taken x (clipped nb) (ix4 b k c n) = x (ix3 b c (col (nb (ix3 b k n)))) := by
  unfold taken masked
  rw [select_apply, broadcastInDim_apply _ bcast_S4x16x65536_S4x16x64x65536_0_1_3 _ (ix4 b k c n) (ix3 b k n) (fun a => match a with
      | ⟨0, _⟩ => by show b.val = if (4 : Nat) = 1 then 0 else b.val; rw [if_neg (by decide)]
      | ⟨1, _⟩ => by show k.val = if (16 : Nat) = 1 then 0 else k.val; rw [if_neg (by decide)]
      | ⟨2, _⟩ => by show n.val = if (65536 : Nat) = 1 then 0 else n.val; rw [if_neg (by decide)]),
    inRange_clipped, show ∀ (u v : F .f32), Scalar.select 1#1 u v = u from fun _ _ => if_pos rfl,
    Cert.LibColumnGather.gather_columns_slot_first _ rfl rfl rfl rfl rfl rfl x _ b c k n (by decide),
    starts_apply]
  exact congrArg (fun q => x (ix3 b c q)) (col_clip _)

end Cert.KernelIdeal.HostValue

end
-- ==== Proof.KernelValue.lean ====
/-
  The kernel's result array is `pooled` of its arguments, for any neighbour words.

  Grid point `t = (b, j)` works on batch `b` and the tile of nodes `[2048 j, 2048 j + 2048)`: its input block is
  `launched (b, ·, ·, 2048 j + ·)` (all 16 slots, all 64 rows) and it writes back block `(b, ·, 2048 j + ·)` of the
  result. By the stored block's reading (the maximum over the slots) and the launched array's (the gathered column),
  what point `t` writes back is block `t` of `pooled`; the 4 × 32 blocks tile the result array, so the array is `pooled`.
-/
import proofs.«406322_j56891136803056_3_alg».proof.Proof.KernelBlock
import proofs.«406322_j56891136803056_3_alg».proof.Proof.KernelHost

noncomputable section

namespace Cert.KernelIdeal.Pool

open Cert.KernelIdeal Cert.KernelIdeal.Gen Cert.KernelIdeal.ValueP Cert.KernelIdeal.HostValue Cert.Neighbours
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl

/-- The launched array at any index `i = (b, k, c, n)`. -/
theorem taken_at (x : FVec Ideal S4x64x65536 .f32) (nb : IVec S4x16x65536 32) (i : S4x16x64x65536.Idx) :
    taken x (clipped nb) i = x (ix3 (i 0) (i 2) (col (nb (ix3 (i 0) (i 1) (i 3))))) :=
  (congrArg (taken x (clipped nb)) (eq_ix4 i)).trans (taken_apply x nb (i 0) (i 1) (i 2) (i 3))

/-- The launched array, named as the input window's array. -/
theorem launched_win (c : Dev nD) : V m c (Pipeline.arrRef spec0 0)
    = taken (F := Ideal) (m ((c : Thread nD τ).loc main_arg0)) (clipped (m ((c : Thread nD τ).loc main_arg1))) := launched m c

/-- Reading an array through the input window's block at point `t`: the array at the index the block embeds. -/
theorem read_blk0 (X : S4x16x64x65536.Idx → Ideal .f32) (t : Fin cfg0.N) (y : S1x16x64x2048.Idx) :
    ((cfg0.win 0).blk t).view.read (Elt Ideal) X y = X (((cfg0.win 0).blk t).view.emb y) := rfl

/-- The input block at point `t`, at a block index: the launched array at the index the block embeds it at. -/
theorem input_at (c : Dev nD) (t : Fin cfg0.N) (y : S1x16x64x2048.Idx) :
    iblk m c 0 t y = taken (F := Ideal) (m ((c : Thread nD τ).loc main_arg0)) (clipped (m ((c : Thread nD τ).loc main_arg1)))
      (((cfg0.win 0).blk t).view.emb y) := by
  unfold iblk
  rw [launched_win]
  exact read_blk0 _ t y

/-- The printed index maps, decided over the 128 grid points: the input block moves with the output block on the
    batch and node axes and sits at 0 on the slot and row axes; and the output's block indices stay in range. -/
theorem idx_facts : ∀ t : Fin cfg0.N,
    win0_0.index t (0 : Fin 4) = win0_1.index t (0 : Fin 3)
    ∧ win0_0.index t (1 : Fin 4) = 0
    ∧ win0_0.index t (2 : Fin 4) = 0
    ∧ win0_0.index t (3 : Fin 4) = win0_1.index t (2 : Fin 3)
    ∧ win0_1.index t (1 : Fin 3) = 0
    ∧ win0_1.index t (0 : Fin 3) ≤ 3
    ∧ win0_1.index t (2 : Fin 3) ≤ 31 :=
  (by decide +kernel : ∀ t : Fin grid0.N, _)

/-- Every (batch, tile) pair is SOME point's output block. -/
theorem idx_onto : ∀ (q0 : Fin 4) (q2 : Fin 32), ∃ t : Fin cfg0.N, win0_1.index t = ![q0.val, 0, q2.val] :=
  (by decide +kernel : ∀ (q0 : Fin 4) (q2 : Fin 32), ∃ t : Fin grid0.N, win0_1.index t = ![q0.val, 0, q2.val])

/-- WHAT POINT `t` WRITES BACK is block `t` of `pooled` of the arguments. -/
theorem flushed_eq (c : Dev nD) (t : Fin cfg0.N) :
    (dats m 0 c).flushed 1 t = ((cfg0.win 1).blk t).view.read (Elt Ideal)
      (pooled (m ((c : Thread nD τ).loc main_arg0)) (m ((c : Thread nD τ).loc main_arg1))) := by
  rw [flushed1]
  unfold out0_1
  rw [View.canon_unit_zero zeros3]
  simp only [View.ld_unit_zero (S := S1x16x64x2048) zeros4]
  obtain ⟨e0, e1, e2, e3, e4, -, -⟩ := idx_facts t
  funext j
  have hj0 : (j 0).val < 1 := (j 0).isLt
  show k0_pay1 (F := Ideal) (iblk m c 0 t) j
    = pooled (m ((c : Thread nD τ).loc main_arg0)) (m ((c : Thread nD τ).loc main_arg1)) (((cfg0.win 1).blk t).view.emb j)
  refine (stored_apply (iblk m c 0 t) j).trans ?_
  refine congrArg (fun f : Fin 16 → Ideal .f32 =>
    Finset.fold max (FloatOps.ofBits (F := Ideal) .f32 0xFF800000#32) f Finset.univ) (funext fun k => ?_)
  rw [input_at, taken_at]
  have h0 : (((cfg0.win 0).blk t).view.emb (ix4 0 k (j 1) (j 2))) 0 = (((cfg0.win 1).blk t).view.emb j) 0 := Fin.ext (by
    show win0_0.index t (0 : Fin 4) * 1 + 1 * (0 : ℕ) = win0_1.index t (0 : Fin 3) * 1 + 1 * (j 0).val
    omega)
  have h1 : (((cfg0.win 0).blk t).view.emb (ix4 0 k (j 1) (j 2))) 1 = k := Fin.ext (by
    show win0_0.index t (1 : Fin 4) * 16 + 1 * k.val = k.val
    omega)
  have h2 : (((cfg0.win 0).blk t).view.emb (ix4 0 k (j 1) (j 2))) 2 = (((cfg0.win 1).blk t).view.emb j) 1 := Fin.ext (by
    show win0_0.index t (2 : Fin 4) * 64 + 1 * (j 1).val = win0_1.index t (1 : Fin 3) * 64 + 1 * (j 1).val
    omega)
  have h3 : (((cfg0.win 0).blk t).view.emb (ix4 0 k (j 1) (j 2))) 3 = (((cfg0.win 1).blk t).view.emb j) 2 := Fin.ext (by
    show win0_0.index t (3 : Fin 4) * 2048 + 1 * (j 2).val = win0_1.index t (2 : Fin 3) * 2048 + 1 * (j 2).val
    omega)
  rw [h0, h1, h2, h3]

/-- An index of the result array is in point `t`'s block iff each coordinate is in the block's range on its axis. -/
theorem mem_blk (t : Fin cfg0.N) (i : S4x64x65536.Idx) :
    i ∈ ((cfg0.win 1).blk t).view.set ↔ ∀ a : Fin 3, win0_1.index t a * S1x64x2048.size a ≤ (i a).val
      ∧ (i a).val < win0_1.index t a * S1x64x2048.size a + S1x64x2048.size a := by
  show i ∈ ((View.whole main_v2).slice (win0_1.rect t)).set ↔ _
  rw [View.set_slice_whole, Rect.mem_set_unit]
  exact Iff.rfl

/-- The blocks tile the result array: every index is in the block of the point for its batch and its tile. -/
theorem covered (i : S4x64x65536.Idx) :
    ∃ t : Fin cfg0.N, (cfg0.win 1).flush t = true ∧ i ∈ ((cfg0.win 1).blk t).view.set := by
  have hi0 : (i 0).val < 4 := (i 0).isLt
  have hi1 : (i 1).val < 64 := (i 1).isLt
  have hi2 : (i 2).val < 65536 := (i 2).isLt
  obtain ⟨t, ht⟩ := idx_onto ⟨(i 0).val, hi0⟩ ⟨(i 2).val / 2048, by omega⟩
  have q0 : win0_1.index t (0 : Fin 3) = (i 0).val := congrFun ht 0
  have q1 : win0_1.index t (1 : Fin 3) = 0 := congrFun ht 1
  have q2 : win0_1.index t (2 : Fin 3) = (i 2).val / 2048 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 64 ≤ (i 1).val ∧ (i 1).val < win0_1.index t (1 : Fin 3) * 64 + 64; omega
  | ⟨2, _⟩ => show win0_1.index t (2 : Fin 3) * 2048 ≤ (i 2).val ∧ (i 2).val < win0_1.index t (2 : Fin 3) * 2048 + 2048; omega

/-- THE RESULT ARRAY after the run is `pooled` of the arguments. -/
theorem final (c : Dev nD) : (dats m 0 c).arrAt 1 cfg0.N
    = pooled (m ((c : Thread nD τ).loc main_arg0)) (m ((c : Thread nD τ).loc main_arg1)) :=
  (dats m 0 c).arrAt_eq_of_cover 1 _ (fun t _ => flushed_eq m c t) covered

/-- THE RUN: every weakly fair execution of the idealized kernel ends with its result at `pooled` of the arguments,
    the arguments unchanged. -/
theorem run : θ_run defs (onTc (τ := τ) (main (F := Ideal))) ⟨m, fun _ => 0, ρ⟩ fun r => ∀ c : Dev nD,
      r.2.mem ((c : Thread nD τ).loc main_v2)
        = pooled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Pool

end
-- ==== Proof.RefValue.lean ====
/-
  The reference's result is `pooled` of its arguments, provided every neighbour index is non-negative.

  Read one operation at a time: the start-index table at `(b, k, n, 0)` is the wrapped word `wrap (nb (b, k, n))`; the
  gather puts at `(b, c, k, n)` the feature `x (b, c, ·)` at that start index's saturated column; for a non-negative
  word the wrap does nothing, so the column is `col (nb (b, k, n))`; the final reduce over the slot axis is the maximum
  over `k`, from the word of -∞.
-/
import proofs.«406322_j56891136803056_3_alg».proof.Proof.Gen.ReferenceIdeal.Read
import proofs.«406322_j56891136803056_3_alg».proof.Proof.Spec
import proofs.«406322_j56891136803056_3_alg».proof.Proof.LibColumnGather
import Idealize.ShloMosaic.PureOps.Ideal.Laws

noncomputable section

namespace Cert.ReferenceIdeal.RefValue

open Cert.ReferenceIdeal Cert.ReferenceIdeal.Gen Cert.ReferenceIdeal.Read Cert.Neighbours
open Idealize.ShloMosaic Idealize.ShloMosaic.ValueIdx

/-- The start-index table at `(b, k, n, 0)`: the neighbour word, wrapped. -/
theorem starts_apply (nb : IVec S4x16x65536 32) (b : Fin 4) (k : Fin 16) (n : Fin 65536) :
    val_main_v5 (F := Ideal) nb (ix4 b k n 0) = wrap (nb (ix3 b k n)) := by
  have e : idx_main_v5 (ix4 b k n (0 : Fin 1)) = ix3 b k n :=
    funext fun a => Fin.ext (by match a with | ⟨0, _⟩ => rfl | ⟨1, _⟩ => rfl | ⟨2, _⟩ => rfl)
  rw [val_main_v5_apply, e, val_main_v4_apply, val_main_v1_apply, val_main_v3_apply, val_main_v0_apply, val_main_v2_apply,
    val_main_c_apply, val_main_c_0_apply]
  rfl

/-- The gathered array at `(b, c, k, n)`: feature row `c` of batch `b` at the node slot `k` of node `n` names. -/
theorem gathered_apply (x : FVec Ideal S4x64x65536 .f32) (nb : IVec S4x16x65536 32) (hnn : ∀ i, 0 ≤ (nb i).toInt)
    (b : Fin 4) (c : Fin 64) (k : Fin 16) (n : Fin 65536) :
    val_main_v6 (F := Ideal) x nb (ix4 b c k n) = x (ix3 b c (col (nb (ix3 b k n)))) := by
  unfold val_main_v6
  rw [Cert.LibColumnGather.gather_columns_row_first _ rfl rfl rfl rfl rfl rfl x _ b c k n (by decide),
    starts_apply, wrap_of_nonneg _ (hnn _)]
  rfl

/-- A slot coordinate inserted into a result index. -/
theorem lift_eq (h : S4x64x16x65536.Reduces [2] S4x64x65536) (b : Fin 4) (c : Fin 64) (n : Fin 65536) (k : Fin 16) :
    h.lift (ix3 b c n) k = ix4 b c k n :=
  funext fun a => Fin.ext (by match a with | ⟨0, _⟩ => rfl | ⟨1, _⟩ => rfl | ⟨2, _⟩ => rfl | ⟨3, _⟩ => rfl)

/-- THE REFERENCE IS `pooled`. -/
theorem result_eq (x : FVec Ideal S4x64x65536 .f32) (nb : IVec S4x16x65536 32) (hnn : ∀ i, 0 ≤ (nb i).toInt) :
    val_main_v7 (F := Ideal) x nb = pooled x nb := by
  funext i
  obtain ⟨b, c, n, rfl⟩ : ∃ (b : Fin 4) (c : Fin 64) (n : Fin 65536), i = ix3 b c n := ⟨i 0, i 1, i 2, eq_ix3 i⟩
  have h : S4x64x16x65536.Reduces [2] S4x64x65536 := by decide
  unfold val_main_v7
  rw [Host.reduce_eq_fold_single FloatOps.maximumf _ _ reducesTo_S4x64x16x65536_S4x64x65536_d2 h h_S_, pooled_apply]
  have hf : (fun k : Fin 16 => val_main_v6 (F := Ideal) x nb (h.lift (ix3 b c n) k))
      = fun k => x (ix3 b c (col (nb (ix3 b k n)))) :=
    funext fun k => by rw [lift_eq h b c n k, gathered_apply x nb hnn]
  exact congrArg (fun f : Fin 16 → Ideal .f32 =>
    Finset.fold max (FloatOps.ofBits (F := Ideal) .f32 0xFF800000#32) f Finset.univ) hf

end Cert.ReferenceIdeal.RefValue

end
-- ==== Proof.PreFacts.lean ====
/-
  What the precondition says about the neighbour indices.

  The printed precondition is the `and` of two `jnp.all`s: every feature is finite, and every neighbour index is
  `≥ 0` (a signed compare against a broadcast zero, reduced by `and` over all three axes). If it evaluates to 1 then
  each compare did: every neighbour word has a non-negative signed value. (The finiteness half is not needed: a
  maximum of extended reals is the same function on both sides whatever the features are.)
-/
import proofs.«406322_j56891136803056_3_alg».proof.Pre_finite_inputs
import Idealize.ShloMosaic.Lib.ReduceAll
import Idealize.ShloMosaic.Lib.Affine
import Idealize.ShloMosaic.Lib.ValueIdx

noncomputable section

namespace Cert.Pre_finite_inputs.Decode

open Cert.Pre_finite_inputs Idealize.ShloMosaic

variable {F : FTy → Type} [FloatOps F] [Facts]

instance : Subsingleton S_.Idx := ⟨fun _ _ => funext fun d => d.elim0⟩

/-- Under the precondition every neighbour index is non-negative. -/
theorem nonneg_of_pre (x : FVec F S4x64x65536 .f32) (nb : IVec S4x16x65536 32)
    (h : fn (F := F) x nb = fun _ => 1#1) (i : S4x16x65536.Idx) : 0 ≤ (nb i).toInt := by
  have h0 := congrFun h ValueIdx.ix0
  dsimp only [fn] at h0
  obtain ⟨-, h2⟩ := IntOp.andi_eq_one.1 h0
  have h3 := Host.reduce_andi_all _ _ _ _ _ h2 i
  have h4 : BitVec.ofBool ((0#32 : BitVec 32).sle (nb i)) = 1#1 := h3
  have h5 : (0#32 : BitVec 32).sle (nb i) = true := by
    cases hb : (0#32 : BitVec 32).sle (nb i) with
    | true => rfl
    | false => rw [hb] at h4; exact absurd h4 (by decide)
  have h6 : (0#32 : BitVec 32).toInt ≤ (nb i).toInt := of_decide_eq_true h5
  rwa [show (0#32 : BitVec 32).toInt = 0 by decide] at h6

end Cert.Pre_finite_inputs.Decode

end
-- ==== Proof.lean ====
/-
  A neighbourhood maximum over a graph: `out[b, c, n] = max_k features[b, c, neighborhood[b, k, n]]`,
  features `[4, 64, 65536]` (64 rows over 65536 nodes, 4 batches), neighbourhoods `[4, 16, 65536]` (16 slots per node).

  The kernel clips every neighbour index into `[0, 65535]`, gathers on the host the `[4, 16, 64, 65536]` array of
  neighbour features, and in one pass over a 4 × 32 grid reduces each `[16, 64, 2048]` block over its leading (slot)
  axis by `max` from -∞. The reference gathers `[4, 64, 16, 65536]` with jnp's indexing (a negative index counts from the
  end; no clip) and reduces over the slot axis by `max` from -∞.

  Both gathers read their start index signed and saturate it into the table. So for a neighbour word `w ≥ 0` both
  programs read column `min w 65535`, and at the extended reals both results are ONE function of the arguments,
  `pooled`: the maximum over the 16 slots of the feature at that column (a maximum of extended reals needs no finiteness,
  and regrouping the slots changes nothing). For `-65535 ≤ w ≤ -1` the reference reads column `w + 65536` where the
  kernel reads column 0: the precondition therefore asks for non-negative neighbour indices, and that is its only use.

  * the kernel's side: Proof/KernelFold.lean (the host operations before the region as one term), Proof/KernelHost.lean
    (that term at an index), Proof/KernelBlock.lean (what the body stores), Proof/KernelValue.lean (blocks to array, the run);
  * the reference's side: Proof/RefValue.lean, over its generated run and stage lemmas;
  * the words: Proof/Words.lean (clip, wrap and the saturated column of one index), Proof/LibColumnGather.lean (a batched
    gather of columns read at an index), Proof/PreFacts.lean (the precondition read back), Proof/Spec.lean (`pooled`).
-/
import proofs.«406322_j56891136803056_3_alg».proof.Defs
import proofs.«406322_j56891136803056_3_alg».proof.Proof.Gen.Kernel
import proofs.«406322_j56891136803056_3_alg».proof.Proof.Gen.Kernel.Skeleton
import proofs.«406322_j56891136803056_3_alg».proof.Proof.Gen.Kernel.Launch
import proofs.«406322_j56891136803056_3_alg».proof.Proof.Gen.Kernel.Points
import proofs.«406322_j56891136803056_3_alg».proof.Proof.Gen.Kernel.Frame
import proofs.«406322_j56891136803056_3_alg».proof.Proof.Gen.KernelIdeal
import proofs.«406322_j56891136803056_3_alg».proof.Proof.Gen.KernelIdeal.Skeleton
import proofs.«406322_j56891136803056_3_alg».proof.Proof.Gen.KernelIdeal.Launch
import proofs.«406322_j56891136803056_3_alg».proof.Proof.Gen.KernelIdeal.Points
import proofs.«406322_j56891136803056_3_alg».proof.Proof.Gen.KernelIdeal.Frame
import proofs.«406322_j56891136803056_3_alg».proof.Proof.Gen.ReferenceIdeal
import proofs.«406322_j56891136803056_3_alg».proof.Proof.Gen.Pre_finite_inputs
import proofs.«406322_j56891136803056_3_alg».proof.Proof.KernelIdealValueP
import proofs.«406322_j56891136803056_3_alg».proof.Proof.Gen.ReferenceIdeal.Run
import proofs.«406322_j56891136803056_3_alg».proof.Proof.Gen.ReferenceIdeal.Read
import proofs.«406322_j56891136803056_3_alg».proof.Proof.KernelValue
import proofs.«406322_j56891136803056_3_alg».proof.Proof.RefValue
import proofs.«406322_j56891136803056_3_alg».proof.Proof.PreFacts
import Idealize.ShloMosaic.Adequacy
import Idealize.ShloMosaic.Init

noncomputable section

namespace Cert.Proof

open Idealize.ShloMosaic Idealize.SL.Sem

/-- The word-level kernel runs and leaves its arguments alone: its generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end at `pooled` of the arguments: the kernel for any neighbour words, the reference for
    non-negative ones, which the precondition gives. -/
theorem algebraic : Cert.algebraic_KernelIdeal_ReferenceIdeal := by
  intro m ρ m' ρ' hpre hagree
  refine ⟨_, Cert.KernelIdeal.Pool.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v7_eq _ _).trans
    (Cert.ReferenceIdeal.RefValue.result_eq _ _ fun i => Cert.Pre_finite_inputs.Decode.nonneg_of_pre _ _ (hpre c) i)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
